-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x25 : Shape := ⟨2, ![100000, 25]⟩
abbrev S25x50 : Shape := ⟨2, ![25, 50]⟩
abbrev S50 : Shape := ⟨1, ![50]⟩
abbrev S2x1600000 : Shape := ⟨2, ![2, 1600000]⟩
abbrev S_ : Shape := ⟨0, ![]⟩

class Facts : Prop where
  bcast_S_S100000x25 : S_.BroadcastsInDim S100000x25 (![] : Fin 0 → Fin S100000x25.rank)
  reducesTo_S100000x25_S_d0_1 : S100000x25.ReducesTo [0, 1] S_
  h_S_ : 0 < S_.numel
  bcast_S_S25x50 : S_.BroadcastsInDim S25x50 (![] : Fin 0 → Fin S25x50.rank)
  reducesTo_S25x50_S_d0_1 : S25x50.ReducesTo [0, 1] S_
  bcast_S_S50 : S_.BroadcastsInDim S50 (![] : Fin 0 → Fin S50.rank)
  reducesTo_S50_S_d0 : S50.ReducesTo [0] S_

variable [Facts]

def fn {F : FTy → Type} [FloatOps F] (main_arg0 : FVec F S100000x25 .f32) (main_arg1 : FVec F S25x50 .f32) (main_arg2 : FVec F S50 .f32) (main_arg3 : IVec S2x1600000 32) : IVec S_ 1 :=
  let main_v0 : FVec F S100000x25 .f32 := Host.absf main_arg0
  let main_cst : FVec F S_ .f32 := constant S_ .f32 0x7F800000#32
  let main_v1 : FVec F S100000x25 .f32 := broadcastInDim S100000x25 ![] bcast_S_S100000x25 main_cst
  let main_v2 : IVec S100000x25 1 := cmpf .olt main_v0 main_v1
  let main_c : IVec S_ 1 := constantI S_ 1 1#1
  let main_v3 : IVec S_ 1 := (fun x v => Host.reduce IntOp.andi x v reducesTo_S100000x25_S_d0_1 h_S_) main_v2 main_c
  let main_v4 : FVec F S25x50 .f32 := Host.absf main_arg1
  let main_cst_0 : FVec F S_ .f32 := constant S_ .f32 0x7F800000#32
  let main_v5 : FVec F S25x50 .f32 := broadcastInDim S25x50 ![] bcast_S_S25x50 main_cst_0
  let main_v6 : IVec S25x50 1 := cmpf .olt main_v4 main_v5
  let main_c_1 : IVec S_ 1 := constantI S_ 1 1#1
  let main_v7 : IVec S_ 1 := (fun x v => Host.reduce IntOp.andi x v reducesTo_S25x50_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  main_v13
-- ==== Kernel.lean ====
abbrev S100000x25 : Shape := ⟨2, ![100000, 25]⟩
abbrev S25x50 : Shape := ⟨2, ![25, 50]⟩
abbrev S50 : Shape := ⟨1, ![50]⟩
abbrev S2x1600000 : Shape := ⟨2, ![2, 1600000]⟩
abbrev S100000x50 : Shape := ⟨2, ![100000, 50]⟩
abbrev S5000x25 : Shape := ⟨2, ![5000, 25]⟩
abbrev S5000x50 : Shape := ⟨2, ![5000, 50]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x50 : Shape := ⟨2, ![1600000, 50]⟩
abbrev S1x50 : Shape := ⟨2, ![1, 50]⟩

abbrev nBuf : Space → Nat
  | .hbm => 24
  | .vmem => 10
  | .smem => 0
  | _ => 0

abbrev bufTy : (tb : Table) → Fin (tcTables nBuf tb) → BufTy
  | .hbm, ⟨0, _⟩ => ⟨S100000x25, .f32⟩
  | .hbm, ⟨1, _⟩ => ⟨S25x50, .f32⟩
  | .hbm, ⟨2, _⟩ => ⟨S50, .f32⟩
  | .hbm, ⟨3, _⟩ => ⟨S2x1600000, .i32⟩
  | .hbm, ⟨4, _⟩ => ⟨S100000x50, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x50, .f32⟩
  | .hbm, ⟨18, _⟩ => ⟨S_, .f32⟩
  | .hbm, ⟨19, _⟩ => ⟨S100000x50, .f32⟩
  | .hbm, ⟨20, _⟩ => ⟨S1600000x1, .i32⟩
  | .hbm, ⟨21, _⟩ => ⟨S100000x50, .f32⟩
  | .hbm, ⟨22, _⟩ => ⟨S1x50, .f32⟩
  | .hbm, ⟨23, _⟩ => ⟨S100000x50, .f32⟩
  | .local _ .vmem, ⟨0, _⟩ => ⟨S5000x25, .f32⟩
  | .local _ .vmem, ⟨1, _⟩ => ⟨S5000x25, .f32⟩
  | .local _ .vmem, ⟨2, _⟩ => ⟨S25x50, .f32⟩
  | .local _ .vmem, ⟨3, _⟩ => ⟨S5000x50, .f32⟩
  | .local _ .vmem, ⟨4, _⟩ => ⟨S5000x50, .f32⟩
  | .local _ .vmem, ⟨5, _⟩ => ⟨S5000x50, .f32⟩
  | .local _ .vmem, ⟨6, _⟩ => ⟨S5000x50, .f32⟩
  | .local _ .vmem, ⟨7, _⟩ => ⟨S1x50, .f32⟩
  | .local _ .vmem, ⟨8, _⟩ => ⟨S5000x50, .f32⟩
  | .local _ .vmem, ⟨9, _⟩ => ⟨S5000x50, .f32⟩
  | _, _ => ⟨S100000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x25_S5000x25_0_0 : ∀ a, (![0, 0] : Fin 2 → Nat) a + S5000x25.size a ≤ S5000x25.size a
  h_S5000x25 : 0 < S5000x25.numel
  bitsLt_bf16_f32 : FTy.bits .bf16 < FTy.bits .f32
  inb_S25x50_S25x50_0_0 : ∀ a, (![0, 0] : Fin 2 → Nat) a + S25x50.size a ≤ S25x50.size a
  h_S25x50 : 0 < S25x50.numel
  inb_S5000x50_S5000x50_0_0 : ∀ a, (![0, 0] : Fin 2 → Nat) a + S5000x50.size a ≤ S5000x50.size a
  h_S5000x50 : 0 < S5000x50.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  shapeCasts_S50_S1x50 : S50.ShapeCasts S1x50
  shapeCasts_S5000x50_S5000x50 : S5000x50.ShapeCasts S5000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  dot_S5000x25_S25x50_S5000x50_1_0_0_1_n_n_wf : DotDims.WF S5000x25 S25x50 S5000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x25.size a ≤ S100000x25.size a
  hwx0_0 : ∀ i : grid0.Coords, EltTy.bits .f32 = 32 ∨ (Rect.block (s := S100000x25) S5000x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x50.size a ≤ S25x50.size a
  hwx0_1 : ∀ i : grid0.Coords, EltTy.bits .f32 = 32 ∨ (Rect.block (s := S25x50) S25x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x50.size a ≤ S100000x50.size a
  hwx0_2 : ∀ i : grid0.Coords, EltTy.bits .f32 = 32 ∨ (Rect.block (s := S100000x50) S5000x50.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x50.size a ≤ S100000x50.size a
  hwx1_0 : ∀ i : grid1.Coords, EltTy.bits .f32 = 32 ∨ (Rect.block (s := S100000x50) S5000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x50.size a ≤ S1x50.size a
  hwx1_1 : ∀ i : grid1.Coords, EltTy.bits .f32 = 32 ∨ (Rect.block (s := S1x50) S1x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x50.size a ≤ S100000x50.size a
  hwx1_2 : ∀ i : grid1.Coords, EltTy.bits .f32 = 32 ∨ (Rect.block (s := S100000x50) S5000x50.size (cc1_transform_2 i) (hinb1_2 i)).WholeWords (EltTy.packing .f32)

variable [Facts₀]

def dot_S5000x25_S25x50_S5000x50_1_0_0_1_n_n : DotDims S5000x25 S25x50 S5000x50 where
  lhsContracting := [1]
  rhsContracting := [0]
  lhsNonContracting := [0]
  rhsNonContracting := [1]
  lhsBatch := []
  rhsBatch := []
  wf := dot_S5000x25_S25x50_S5000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf

abbrev win0_0 : Pipeline.Window sig grid0 :=
  Pipeline.Window.ofSpec (Memref.whole main_arg0) S5000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x50.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x25 : Shape := ⟨2, ![100000, 25]⟩
abbrev S25x50 : Shape := ⟨2, ![25, 50]⟩
abbrev S50 : Shape := ⟨1, ![50]⟩
abbrev S2x1600000 : Shape := ⟨2, ![2, 1600000]⟩
abbrev S1x1600000 : Shape := ⟨2, ![1, 1600000]⟩
abbrev S1600000 : Shape := ⟨1, ![1600000]⟩
abbrev S100000x50 : Shape := ⟨2, ![100000, 50]⟩
abbrev S_ : Shape := ⟨0, ![]⟩
abbrev S1600000x1 : Shape := ⟨2, ![1600000, 1]⟩
abbrev S1600000x50 : Shape := ⟨2, ![1600000, 50]⟩
abbrev S1x50 : Shape := ⟨2, ![1, 50]⟩

abbrev nBuf : Space → Nat
  | .hbm => 28
  | .vmem => 0
  | .smem => 0
  | _ => 0

abbrev bufTy : (tb : Table) → Fin (tcTables nBuf tb) → BufTy
  | .hbm, ⟨0, _⟩ => ⟨S100000x25, .f32⟩
  | .hbm, ⟨1, _⟩ => ⟨S25x50, .f32⟩
  | .hbm, ⟨2, _⟩ => ⟨S50, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x50, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x50, .f32⟩
  | .hbm, ⟨18, _⟩ => ⟨S_, .f32⟩
  | .hbm, ⟨19, _⟩ => ⟨S100000x50, .f32⟩
  | .hbm, ⟨20, _⟩ => ⟨S1600000x1, .i32⟩
  | .hbm, ⟨21, _⟩ => ⟨S100000x50, .f32⟩
  | .hbm, ⟨22, _⟩ => ⟨S1x50, .f32⟩
  | .hbm, ⟨23, _⟩ => ⟨S100000x50, .f32⟩
  | .hbm, ⟨24, _⟩ => ⟨S100000x50, .f32⟩
  | .hbm, ⟨25, _⟩ => ⟨S_, .f32⟩
  | .hbm, ⟨26, _⟩ => ⟨S100000x50, .f32⟩
  | .hbm, ⟨27, _⟩ => ⟨S100000x50, .f32⟩
  | _, _ => ⟨S100000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  dot_S100000x25_S25x50_S100000x50_1_0_0_1_n_n_wf : DotDims.WF S100000x25 S25x50 S100000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1

variable [Facts₀]

def dot_S100000x25_S25x50_S100000x50_1_0_0_1_n_n : DotDims S100000x25 S25x50 S100000x50 where
  lhsContracting := [1]
  rhsContracting := [0]
  lhsNonContracting := [0]
  rhsNonContracting := [1]
  lhsBatch := []
  rhsBatch := []
  wf := dot_S100000x25_S25x50_S100000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf

class Facts : Prop extends Facts₀ where

variable [Facts]
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Linear.lean ====
/- Region 0 (the linear transform), read as a value at the ideal instance.

   The grid has 20 points; point t loads rows 5000·t … 5000·t + 4999 of the node features (all 25 columns) and the whole
   25 × 50 weight matrix, multiplies them into a zero accumulator and stores the 5000 × 50 product as block t of the
   output. Rounding the operands to bf16 is the identity on the extended reals, so entry (p, q) of the stored block is
   ∑ₖ x (5000·t + p, k) · w (k, q): block t of the whole product `xw x w`. The 20 blocks tile the 100000 rows, so the
   output array ends holding `xw x w` everywhere, whatever valuation `V` the region is entered from. -/
import proofs.«114490_j43722767073853_1_alg».proof.Proof.Gen.KernelIdeal.Frame
import proofs.«114490_j43722767073853_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat)

/-- The product of the node features with the weights, as one whole array: entry (r, j) is ∑ₖ x (r, k) · w (k, j). -/
def xw (x : FVec Ideal S100000x25 .f32) (w : FVec Ideal S25x50 .f32) : FVec Ideal S100000x50 .f32 :=
  fun i => ∑ k : Fin 25, x (ix2 (⟨(i 0).val, (i 0).isLt⟩ : Fin 100000) k) * w (ix2 k (⟨(i 1).val, (i 1).isLt⟩ : Fin 50))

theorem xw_ix2 (x : FVec Ideal S100000x25 .f32) (w : FVec Ideal S25x50 .f32) (r : Fin 100000) (j : Fin 50) :
    xw x w (ix2 r j) = ∑ k : Fin 25, x (ix2 r k) * w (ix2 k j) := rfl

/-! ## The kernel's matrix product at an entry -/

/-- The output row comes from the left operand's axis 0. -/
theorem lhs_axis0 (i : S5000x50.Idx) (q : dot_S5000x25_S25x50_S5000x50_1_0_0_1_n_n.contr.Idx) :
    (dot_S5000x25_S25x50_S5000x50_1_0_0_1_n_n.lhsIdx i q 0).val = (i 0).val := by
  unfold DotDims.lhsIdx
  rw [dif_neg (show ¬(0 : Fin S5000x25.rank) ∈ dot_S5000x25_S25x50_S5000x50_1_0_0_1_n_n.lhsBatch by decide), dif_pos (show (0 : Fin S5000x25.rank) ∈ dot_S5000x25_S25x50_S5000x50_1_0_0_1_n_n.lhsNonContracting by decide)]
  rfl
/-- The contracted index runs along the left operand's axis 1. -/
theorem lhs_axis1 (i : S5000x50.Idx) (q : dot_S5000x25_S25x50_S5000x50_1_0_0_1_n_n.contr.Idx) :
    (dot_S5000x25_S25x50_S5000x50_1_0_0_1_n_n.lhsIdx i q 1).val = (q ⟨0, by decide⟩).val :=
  dot_S5000x25_S25x50_S5000x50_1_0_0_1_n_n.lhsIdx_val_of_single rfl i q
/-- The contracted index runs along the right operand's axis 0. -/
theorem rhs_axis0 (i : S5000x50.Idx) (q : dot_S5000x25_S25x50_S5000x50_1_0_0_1_n_n.contr.Idx) :
    (dot_S5000x25_S25x50_S5000x50_1_0_0_1_n_n.rhsIdx i q 0).val = (q ⟨0, by decide⟩).val :=
  dot_S5000x25_S25x50_S5000x50_1_0_0_1_n_n.rhsIdx_val_of_single rfl i q
/-- The output column comes from the right operand's axis 1. -/
theorem rhs_axis1 (i : S5000x50.Idx) (q : dot_S5000x25_S25x50_S5000x50_1_0_0_1_n_n.contr.Idx) :
    (dot_S5000x25_S25x50_S5000x50_1_0_0_1_n_n.rhsIdx i q 1).val = (i 1).val := by
  unfold DotDims.rhsIdx
  rw [dif_neg (show ¬(1 : Fin S25x50.rank) ∈ dot_S5000x25_S25x50_S5000x50_1_0_0_1_n_n.rhsBatch by decide), dif_pos (show (1 : Fin S25x50.rank) ∈ dot_S5000x25_S25x50_S5000x50_1_0_0_1_n_n.rhsNonContracting by decide)]
  rfl

/-- What one point stores, at entry (p, q) of its block: the 25-term inner product of row p of the loaded feature rows
    with column q of the weights (the bf16 roundings are the identity at the ideal instance, the accumulator is zero). -/
theorem stored_apply (x0 : Vec Ideal S5000x25 .f32) (x1 : Vec Ideal S25x50 .f32) (p : Fin 5000) (q : Fin 50) :
    k0_pay1 (F := Ideal) x0 x1 (ix2 p q) = ∑ k : Fin 25, x0 (ix2 p k) * x1 (ix2 k q) := by
  unfold k0_pay1
  exact Cert.Lib.matmul_plain_apply dot_S5000x25_S25x50_S5000x50_1_0_0_1_n_n rfl rfl lhs_axis0 lhs_axis1 rhs_axis0 rhs_axis1 none _ _ p q

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the feature rows and the output move with the point along axis 0, the weight
    matrix stays put. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 V c).flushed 2 t = ((cfg0.win 2).blk t).view.read (Elt Ideal) (xw (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x25) zero_offsets, View.ld_unit_zero (S := S25x50) zero_offsets]
  obtain ⟨e00, e01, e10, e11, e20, e21⟩ := index_maps t
  have ht : t.val < 20 := t.isLt
  funext j
  obtain ⟨p, q, rfl⟩ : ∃ (p : Fin 5000) (q : Fin 50), j = ix2 p q := ⟨j 0, j 1, eq_ix2 j⟩
  have hp : p.val < 5000 := p.isLt
  have hrow : t.val * 5000 + p.val < 100000 := by omega
  have hout : ((cfg0.win 2).blk t).view.emb (ix2 p q) = ix2 (⟨t.val * 5000 + p.val, hrow⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 50 + 1 * q.val = q.val; omega
  have hx : ∀ k : Fin 25, iblk0 V c 0 t (ix2 p k) = V c main_arg0 (ix2 (⟨t.val * 5000 + p.val, hrow⟩ : Fin 100000) k) := fun k => by
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 25 + 1 * k.val = k.val; omega
  have hw : ∀ k : Fin 25, iblk0 V c 1 t (ix2 k q) = V c main_arg1 (ix2 k q) := fun k => by
    show V c main_arg1 (((cfg0.win 1).blk t).view.emb (ix2 k q)) = V c main_arg1 _
    refine congrArg _ (funext fun a => Fin.ext ?_)
    match a with
    | ⟨0, _⟩ => show win0_1.index t (0 : Fin 2) * 25 + 1 * k.val = k.val; omega
    | ⟨1, _⟩ => show win0_1.index t (1 : Fin 2) * 50 + 1 * q.val = q.val; omega
  show k0_pay1 (F := Ideal) (iblk0 V c 0 t) (iblk0 V c 1 t) (ix2 p q)
    = xw (V c main_arg0) (V c main_arg1) (((cfg0.win 2).blk t).view.emb (ix2 p q))
  rw [hout, xw_ix2]
  refine (stored_apply (iblk0 V c 0 t) (iblk0 V c 1 t) p q).trans ?_
  exact Finset.sum_congr rfl fun k _ => by rw [hx k, hw k]

/-- An index of the output array lies in point t's block iff each coordinate lies in the block's range. -/
theorem mem_block (t : Fin cfg0.N) (i : S100000x50.Idx) :
    i ∈ ((cfg0.win 2).blk t).view.set ↔ ∀ a : Fin 2, win0_2.index t a * S5000x50.size a ≤ (i a).val ∧ (i a).val < win0_2.index t a * S5000x50.size a + S5000x50.size a := by
  show i ∈ ((View.whole main_v0).slice (win0_2.rect t)).set ↔ _
  rw [View.set_slice_whole, Rect.mem_set_unit]
  exact Iff.rfl

/-- Every index of the output array is in some point's block: row r is in block r / 5000. -/
theorem covered (i : S100000x50.Idx) :
    ∃ t : Fin cfg0.N, (cfg0.win 2).flush t = true ∧ i ∈ ((cfg0.win 2).blk t).view.set := by
  have hi0 : (i 0).val < 100000 := (i 0).isLt
  have hi1 : (i 1).val < 50 := (i 1).isLt
  let t : Fin cfg0.N := ⟨(i 0).val / 5000, by show (i 0).val / 5000 < 20; omega⟩
  obtain ⟨e00, e01, e10, e11, e20, e21⟩ := index_maps t
  have htv : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 50 ≤ (i 1).val ∧ (i 1).val < win0_2.index t (1 : Fin 2) * 50 + 50; omega

/-- The output array after the region: the whole product of the feature and weight arrays the region was entered with. -/
theorem array_eq (c : Dev nD) : (dat0 V c).arrAt 2 cfg0.N = xw (V c main_arg0) (V c main_arg1) :=
  (dat0 V c).arrAt_eq_of_cover 2 (xw (V c main_arg0) (V c main_arg1)) (fun t _ => flushed_eq V c t) covered

end Cert.KernelIdeal.Linear

end
-- ==== Proof.Epilogue.lean ====
/- Region 1 (bias and ReLU), read as a value at the ideal instance.

   The grid has 20 points; point t loads rows 5000·t … 5000·t + 4999 of the aggregated messages (all 50 columns) and the
   1 × 50 bias row, adds the bias row to every loaded row, takes the maximum with zero and stores the result as block t of
   the output. Entry (p, q) of the stored block is max (agg (5000·t + p, q) + b (0, q)) 0: block t of the whole array
   `biasRelu agg b`. The 20 blocks tile the 100000 rows, so the output array ends holding `biasRelu agg b` everywhere,
   whatever valuation `V` the region is entered from. -/
import proofs.«114490_j43722767073853_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Epilogue

open Cert.KernelIdeal Cert.KernelIdeal.Gen
open Idealize.ShloMosaic Idealize.ShloMosaic.TcCoe Idealize.ShloMosaic.ValueIdx Idealize.SL.Sem
open Idealize.ShloMosaic.Pipeline (Dat)

/-- The bias row added to every row of the aggregate, then the maximum with zero, as one whole array:
    entry (r, j) is max (agg (r, j) + b (0, j)) 0. -/
def biasRelu (agg : FVec Ideal S100000x50 .f32) (b : FVec Ideal S1x50 .f32) : FVec Ideal S100000x50 .f32 :=
  fun i => max (agg i + b (ix2 (0 : Fin 1) (⟨(i 1).val, (i 1).isLt⟩ : Fin 50))) (Ideal.ofBits .f32 0x00000000#32)

theorem biasRelu_ix2 (agg : FVec Ideal S100000x50 .f32) (b : FVec Ideal S1x50 .f32) (r : Fin 100000) (j : Fin 50) :
    biasRelu agg b (ix2 r j) = max (agg (ix2 r j) + b (ix2 (0 : Fin 1) j)) (Ideal.ofBits .f32 0x00000000#32) := rfl

/-- What one point stores, at entry (p, q) of its block: the loaded aggregate entry plus the bias row's entry q, against
    zero (the two shape casts are between equal shapes; the bias row is broadcast along the rows). -/
theorem stored_apply (x0 : Vec Ideal S5000x50 .f32) (x1 : Vec Ideal S1x50 .f32) (p : Fin 5000) (q : Fin 50) :
    k1_pay1 (F := Ideal) x0 x1 (ix2 p q) = max (x0 (ix2 p q) + x1 (ix2 (0 : Fin 1) q)) (Ideal.ofBits .f32 0x00000000#32) := by
  unfold k1_pay1
  simp only [maximumf_apply, addf_apply, broadcast_apply, shapeCast_self]
  rw [broadcastTo_1b_ab_apply]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the aggregate and the output move with the point along axis 0, the bias row
    stays put. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `biasRelu` of the arrays the region finds. -/
theorem flushed_eq (c : Dev nD) (t : Fin cfg1.N) :
    (dat1 V c).flushed 2 t = ((cfg1.win 2).blk t).view.read (Elt Ideal) (biasRelu (V c main_v14) (V c main_v15)) := by
  show (cfg1.win 2).cut (grid1.coords t) ((dat1 V c).after 2 t) = _
  rw [after1_2]
  unfold out1_2
  rw [View.canon_unit_zero zero_offsets]
  simp only [View.ld_unit_zero (S := S5000x50) zero_offsets, View.ld_unit_zero (S := S1x50) zero_offsets]
  obtain ⟨e00, e01, e10, e11, e20, e21⟩ := index_maps t
  have ht : t.val < 20 := t.isLt
  funext j
  obtain ⟨p, q, rfl⟩ : ∃ (p : Fin 5000) (q : Fin 50), j = ix2 p q := ⟨j 0, j 1, eq_ix2 j⟩
  have hp : p.val < 5000 := p.isLt
  have hrow : t.val * 5000 + p.val < 100000 := by omega
  have hout : ((cfg1.win 2).blk t).view.emb (ix2 p q) = ix2 (⟨t.val * 5000 + p.val, hrow⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 50 + 1 * q.val = q.val; omega
  have hagg : iblk1 V c 0 t (ix2 p q) = V c main_v14 (ix2 (⟨t.val * 5000 + p.val, hrow⟩ : Fin 100000) q) := by
    show V c main_v14 (((cfg1.win 0).blk t).view.emb (ix2 p q)) = V c main_v14 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 50 + 1 * q.val = q.val; omega
  have hb : iblk1 V c 1 t (ix2 (0 : Fin 1) q) = V c main_v15 (ix2 (0 : Fin 1) q) := by
    show V c main_v15 (((cfg1.win 1).blk t).view.emb (ix2 (0 : Fin 1) q)) = V c main_v15 _
    refine congrArg _ (funext fun a => Fin.ext ?_)
    match a with
    | ⟨0, _⟩ => show win1_1.index t (0 : Fin 2) * 1 + 1 * 0 = 0; omega
    | ⟨1, _⟩ => show win1_1.index t (1 : Fin 2) * 50 + 1 * q.val = q.val; omega
  show k1_pay1 (F := Ideal) (iblk1 V c 0 t) (iblk1 V c 1 t) (ix2 p q)
    = biasRelu (V c main_v14) (V c main_v15) (((cfg1.win 2).blk t).view.emb (ix2 p q))
  rw [hout, biasRelu_ix2]
  refine (stored_apply (iblk1 V c 0 t) (iblk1 V c 1 t) p q).trans ?_
  rw [hagg, hb]

/-- An index of the output array lies in point t's block iff each coordinate lies in the block's range. -/
theorem mem_block (t : Fin cfg1.N) (i : S100000x50.Idx) :
    i ∈ ((cfg1.win 2).blk t).view.set ↔ ∀ a : Fin 2, win1_2.index t a * S5000x50.size a ≤ (i a).val ∧ (i a).val < win1_2.index t a * S5000x50.size a + S5000x50.size a := by
  show i ∈ ((View.whole main_v16).slice (win1_2.rect t)).set ↔ _
  rw [View.set_slice_whole, Rect.mem_set_unit]
  exact Iff.rfl

/-- Every index of the output array is in some point's block: row r is in block r / 5000. -/
theorem covered (i : S100000x50.Idx) :
    ∃ t : Fin cfg1.N, (cfg1.win 2).flush t = true ∧ i ∈ ((cfg1.win 2).blk t).view.set := by
  have hi0 : (i 0).val < 100000 := (i 0).isLt
  have hi1 : (i 1).val < 50 := (i 1).isLt
  let t : Fin cfg1.N := ⟨(i 0).val / 5000, by show (i 0).val / 5000 < 20; omega⟩
  obtain ⟨e00, e01, e10, e11, e20, e21⟩ := index_maps t
  have htv : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 50 ≤ (i 1).val ∧ (i 1).val < win1_2.index t (1 : Fin 2) * 50 + 50; omega

/-- The output array after the region: `biasRelu` of the aggregate and bias-row arrays the region was entered with. -/
theorem array_eq (c : Dev nD) : (dat1 V c).arrAt 2 cfg1.N = biasRelu (V c main_v14) (V c main_v15) :=
  (dat1 V c).arrAt_eq_of_cover 2 (biasRelu (V c main_v14) (V c main_v15)) (fun t _ => flushed_eq V c t) covered

end Cert.KernelIdeal.Epilogue

end
-- ==== Proof.Whole.lean ====
/- The host stretch between the two regions, and the kernel program's result as one function of its arguments.

   After region 0 the program slices the two rows of the edge list (sources, targets), wraps negative source indices by
   adding the node count, gathers row src(e) of the transformed features for every edge e, and adds each gathered row
   into row dst(e) of a zero array: the aggregate. It also recasts the 50-entry bias as a 1 × 50 row. Region 1 then adds
   that row to every row of the aggregate and takes the maximum with zero. Composed with what region 0 leaves (the whole
   product of features and weights) this makes the result buffer
   `biasRelu (aggregate (xw x w) e) (row b)` of the four argument arrays. -/
import proofs.«114490_j43722767073853_1_alg».proof.Proof.Gen.KernelIdeal.Frame
import proofs.«114490_j43722767073853_1_alg».proof.Proof.Linear
import proofs.«114490_j43722767073853_1_alg».proof.Proof.Epilogue
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

/-- The edge list's source row, as a vector of node indices. -/
def sources (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edge list's target row, as a vector of node indices. -/
def targets (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The aggregate of the transformed features `h` over the edge list `e`: row src(e) of `h` (a negative source index
    first moved up by the node count) gathered for every edge and added into row dst(e) of a zero array. -/
def aggregate (h : FVec Ideal S100000x50 .f32) (e : (⟨S2x1600000, .i32⟩ : BufTy).Contents (Elt Ideal)) : FVec Ideal S100000x50 .f32 :=
  Host.scatterAdd scatter_S100000x50_S1600000x1_S1600000x50_1_0_0_1
    (broadcastInDim S100000x50 ![] bcast_S_S100000x50 (constant S_ .f32 0x00000000#32))
    (broadcastInDim S1600000x1 ![0] bcast_S1600000_S1600000x1_0 (targets e))
    (Host.gather gather_S100000x50_S1600000x1_S1600000x50_1_0_n_n_0_1_150 h
      (broadcastInDim S1600000x1 ![0] bcast_S1600000_S1600000x1_0
        (select (cmpi .slt (sources e) (broadcastInDim S1600000 ![] bcast_S_S1600000 (constantI S_ 32 0#32)))
          (addi (sources e) (broadcastInDim S1600000 ![] bcast_S_S1600000 (constantI S_ 32 100000#32)))
          (sources e))))

/-- The bias vector as a 1 × 50 row. -/
def biasRow (b : FVec Ideal S50 .f32) : FVec Ideal S1x50 .f32 := shapeCast S1x50 b shapeCasts_S50_S1x50

/-- The kernel program's result as one function of its four argument arrays. -/
def result (x : FVec Ideal S100000x25 .f32) (w : FVec Ideal S25x50 .f32) (b : FVec Ideal S50 .f32)
    (e : (⟨S2x1600000, .i32⟩ : BufTy).Contents (Elt Ideal)) : FVec Ideal S100000x50 .f32 :=
  Epilogue.biasRelu (aggregate (Linear.xw x w) e) (biasRow b)

variable (m : (ℓ : Loc nD τ sig) → Buf (Elt Ideal) ℓ) (ρ : Dev nD → PrngReg)

/-- At region 1's entry the aggregate buffer holds the aggregate of what region 0 left over the edge list as launched. -/
theorem aggregate_at_entry (c : Dev nD) :
    W2 m ρ c (Proc.devRef .tc main_v14)
      = aggregate (W1 m ρ c (Proc.devRef .tc main_v0)) (W1 m ρ c (Proc.devRef .tc main_arg3)) := by
  show StableHlo.after hostOps1 (W1 m ρ c) (Proc.devRef .tc main_v14) = _
  after_results
  rfl

/-- At region 1's entry the bias-row buffer holds the bias as a row. -/
theorem biasRow_at_entry (c : Dev nD) :
    W2 m ρ c (Proc.devRef .tc main_v15) = biasRow (W1 m ρ c (Proc.devRef .tc main_arg2)) := by
  show StableHlo.after hostOps1 (W1 m ρ c) (Proc.devRef .tc main_v15) = _
  after_results
  rfl

/-- Region 0 leaves the whole product of the launched feature and weight arrays in its output buffer. -/
theorem product_at_exit (c : Dev nD) :
    W1 m ρ c (Proc.devRef .tc main_v0)
      = Linear.xw (m ((c : Thread nD τ).loc main_arg0)) (m ((c : Thread nD τ).loc main_arg1)) :=
  (W1_arr m ρ c 2).trans (Linear.array_eq (V0 m ρ) c)

/-- Region 0 does not touch the edge list or the bias. -/
theorem edges_at_exit (c : Dev nD) : W1 m ρ c (Proc.devRef .tc main_arg3) = m ((c : Thread nD τ).loc main_arg3) :=
  W1_of_ne m ρ c main_arg3 (by decide)
theorem bias_at_exit (c : Dev nD) : W1 m ρ c (Proc.devRef .tc main_arg2) = m ((c : Thread nD τ).loc main_arg2) :=
  W1_of_ne m ρ c main_arg2 (by decide)

/-- The result buffer at the last boundary is `result` of the launched argument arrays. -/
theorem result_at_end (c : Dev nD) :
    W3 m ρ c (Proc.devRef .tc main_v16)
      = result (m ((c : Thread nD τ).loc main_arg0)) (m ((c : Thread nD τ).loc main_arg1))
          (m ((c : Thread nD τ).loc main_arg2)) (m ((c : Thread nD τ).loc main_arg3)) := by
  refine (W3_arr m ρ c 2).trans ((Epilogue.array_eq (V2 m ρ) c).trans ?_)
  show Epilogue.biasRelu (W2 m ρ c (Proc.devRef .tc main_v14)) (W2 m ρ c (Proc.devRef .tc main_v15)) = _
  rw [aggregate_at_entry, biasRow_at_entry, product_at_exit, edges_at_exit, bias_at_exit]
  rfl

end Cert.KernelIdeal.Whole

end
-- ==== Proof.RefValue.lean ====
/- The reference's result is the kernel program's function of the arguments, at the ideal instance.

   The reference multiplies features by weights on the host (a dot_general: entry (r, j) is ∑ₖ x (r, k) · w (k, j), the
   same 25-term sum the kernel's blocks tile), applies the very same slicing, index wrapping, gather and scatter-add to
   it, broadcasts the bias over the rows in two steps (a 1 × 50 row, then every row) where the kernel recasts it as a
   row and broadcasts that, adds, and takes the maximum with the zero constant. Read entry by entry both are
   max (aggregate (x·w) e (r, j) + b j) 0; no law of the extended reals beyond that reading is needed. -/
import proofs.«114490_j43722767073853_1_alg».proof.Proof.Gen.ReferenceIdeal.Run
import proofs.«114490_j43722767073853_1_alg».proof.Proof.Gen.ReferenceIdeal.Read
import proofs.«114490_j43722767073853_1_alg».proof.Proof.Whole
import Idealize.ShloMosaic.Lib.ValueLayout

set_option maxRecDepth 16384

noncomputable section

namespace Cert.ReferenceIdeal.Same

open Cert.ReferenceIdeal Cert.ReferenceIdeal.Gen Cert.ReferenceIdeal.Read
open Idealize.ShloMosaic Idealize.ShloMosaic.TcCoe Idealize.ShloMosaic.ValueIdx Idealize.SL.Sem

/-- The host's dot_general is the whole product the kernel's first region tiles. -/
theorem product_eq (x0 : (⟨S100000x25, .f32⟩ : BufTy).Contents (Elt Ideal)) (x1 : (⟨S25x50, .f32⟩ : BufTy).Contents (Elt Ideal)) :
    val_main_v4 (F := Ideal) x0 x1 = Cert.KernelIdeal.Linear.xw x0 x1 := by
  funext i
  rw [val_main_v4_apply]
  unfold Cert.KernelIdeal.Linear.xw
  refine Finset.sum_congr rfl fun k _ => ?_
  have hl : lidx_main_v4 i k = ix2 (⟨(i 0).val, (i 0).isLt⟩ : Fin 100000) k :=
    funext fun a => Fin.ext (by match a with | ⟨0, _⟩ => rfl | ⟨1, _⟩ => rfl)
  have hr : ridx_main_v4 i k = ix2 k (⟨(i 1).val, (i 1).isLt⟩ : Fin 50) :=
    funext fun a => Fin.ext (by match a with | ⟨0, _⟩ => rfl | ⟨1, _⟩ => rfl)
  rw [hl, hr]

/-- The reference's aggregate is the kernel program's: the same host operations applied to equal products. -/
theorem aggregate_eq (x0 : (⟨S100000x25, .f32⟩ : BufTy).Contents (Elt Ideal)) (x1 : (⟨S25x50, .f32⟩ : BufTy).Contents (Elt Ideal))
    (x3 : (⟨S2x1600000, .i32⟩ : BufTy).Contents (Elt Ideal)) :
    val_main_v14 (F := Ideal) x0 x1 x3 = Cert.KernelIdeal.Whole.aggregate (Cert.KernelIdeal.Linear.xw x0 x1) x3 := by
  unfold val_main_v14 val_main_v11
  rw [product_eq]
  rfl

/-- The reference's two broadcasts of the bias read, at (r, j), entry j of the bias. -/
theorem bias_index (i : S100000x50.Idx) : idx_main_v15 (idx_main_v16 i) = ix1 (⟨(i 1).val, (i 1).isLt⟩ : Fin 50) :=
  funext fun a => Fin.ext (by match a with | ⟨0, _⟩ => rfl)

/-- The reference run's result term is the kernel program's function of the same arguments. -/
theorem result_eq (x0 : (⟨S100000x25, .f32⟩ : BufTy).Contents (Elt Ideal)) (x1 : (⟨S25x50, .f32⟩ : BufTy).Contents (Elt Ideal))
    (x2 : (⟨S50, .f32⟩ : BufTy).Contents (Elt Ideal)) (x3 : (⟨S2x1600000, .i32⟩ : BufTy).Contents (Elt Ideal)) :
    val_main_v18 (F := Ideal) x0 x1 x2 x3 = Cert.KernelIdeal.Whole.result x0 x1 x2 x3 := by
  funext i
  rw [val_main_v18_apply, val_main_v17_apply, val_main_call0_v0_apply, val_main_call0_cst_apply, val_main_v16_apply,
    val_main_v15_apply, bias_index, aggregate_eq]
  unfold Cert.KernelIdeal.Whole.result Cert.KernelIdeal.Epilogue.biasRelu Cert.KernelIdeal.Whole.biasRow
  rw [shapeCast_a_1a_apply]
  rfl

end Cert.ReferenceIdeal.Same

end
-- ==== Proof.lean ====
/- The proof of `Cert.Claim`: a two-layer graph convolution step — features times weights, messages gathered along the
   edges and summed at their targets, bias, ReLU — as a tiled kernel program against its plain reference.

   Both programs compute max (aggregate (x·w) e + b) 0. The kernel program forms x·w in 20 row blocks of 5000 (operands
   rounded to bf16, which is the identity on the extended reals; `Proof/Linear.lean`), runs the gather and scatter-add on
   the host exactly as the reference does (`Proof/Whole.lean`), and applies bias and ReLU in 20 row blocks again
   (`Proof/Epilogue.lean`); the reference's dot_general is the same 25-term sum entry by entry and its broadcasts read the
   same bias entry (`Proof/RefValue.lean`). The frames of the two kernel programs are the generated ones; the launch is
   read once more with the result buffer named (`Proof/RunNamed.lean`); the reference's frame is its run with the result
   dropped. No rewrite was applied by the idealization, so `preserves` has nothing to show. -/
import proofs.«114490_j43722767073853_1_alg».proof.Defs
import proofs.«114490_j43722767073853_1_alg».proof.Proof.Gen.Kernel
import proofs.«114490_j43722767073853_1_alg».proof.Proof.Gen.Kernel.Skeleton
import proofs.«114490_j43722767073853_1_alg».proof.Proof.Gen.Kernel.Launch
import proofs.«114490_j43722767073853_1_alg».proof.Proof.Gen.Kernel.Points
import proofs.«114490_j43722767073853_1_alg».proof.Proof.Gen.Kernel.Frame
import proofs.«114490_j43722767073853_1_alg».proof.Proof.Gen.KernelIdeal
import proofs.«114490_j43722767073853_1_alg».proof.Proof.Gen.KernelIdeal.Skeleton
import proofs.«114490_j43722767073853_1_alg».proof.Proof.Gen.KernelIdeal.Launch
import proofs.«114490_j43722767073853_1_alg».proof.Proof.Gen.KernelIdeal.Points
import proofs.«114490_j43722767073853_1_alg».proof.Proof.Gen.KernelIdeal.Frame
import proofs.«114490_j43722767073853_1_alg».proof.Proof.Gen.ReferenceIdeal
import proofs.«114490_j43722767073853_1_alg».proof.Proof.Gen.ReferenceIdeal.Run
import proofs.«114490_j43722767073853_1_alg».proof.Proof.Gen.ReferenceIdeal.Read
import proofs.«114490_j43722767073853_1_alg».proof.Proof.Gen.Pre_finite_inputs
import proofs.«114490_j43722767073853_1_alg».proof.Proof.RunNamed
import proofs.«114490_j43722767073853_1_alg».proof.Proof.Whole
import proofs.«114490_j43722767073853_1_alg».proof.Proof.RefValue
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the four arguments both programs end with the result buffer at `Whole.result` of them:
    the kernel program by its named run and `Whole.result_at_end`, the reference by its run and `Same.result_eq`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.result_at_end m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v18_eq _ _ _ _).trans (Cert.ReferenceIdeal.Same.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
